-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn {F : FTy → Type} [FloatOps F] (main_arg0 : FVec F S4096x512 .f32) (main_arg1 : FVec F S4096x512 .f32) (main_arg2 : FVec F S4096x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4096x512 .f32 := Host.absf main_arg2
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  main_v13
-- ==== Kernel.lean ====
abbrev S4096x512 : Shape := ⟨2, ![4096, 512]⟩
abbrev S4096x4096 : Shape := ⟨2, ![4096, 4096]⟩
abbrev S256x512 : Shape := ⟨2, ![256, 512]⟩
abbrev S256x4096 : Shape := ⟨2, ![256, 4096]⟩
abbrev S256 : Shape := ⟨1, ![256]⟩
abbrev S256x1 : Shape := ⟨2, ![256, 1]⟩

abbrev nBuf : Space → Nat
  | .hbm => 7
  | .vmem => 8
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .bf16⟩
  | .hbm, ⟨4, _⟩ => ⟨S4096x512, .bf16⟩
  | .hbm, ⟨5, _⟩ => ⟨S4096x512, .f32⟩
  | .hbm, ⟨6, _⟩ => ⟨S4096x4096, .f32⟩
  | .local _ .vmem, ⟨0, _⟩ => ⟨S256x512, .f32⟩
  | .local _ .vmem, ⟨1, _⟩ => ⟨S256x512, .f32⟩
  | .local _ .vmem, ⟨2, _⟩ => ⟨S4096x512, .bf16⟩
  | .local _ .vmem, ⟨3, _⟩ => ⟨S4096x512, .bf16⟩
  | .local _ .vmem, ⟨4, _⟩ => ⟨S256x512, .f32⟩
  | .local _ .vmem, ⟨5, _⟩ => ⟨S256x512, .f32⟩
  | .local _ .vmem, ⟨6, _⟩ => ⟨S256x4096, .f32⟩
  | .local _ .vmem, ⟨7, _⟩ => ⟨S256x4096, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  reduces_S256x4096_S256 : S256x4096.Reduces [1] S256
  shapeCasts_S256_S256x1 : S256.ShapeCasts S256x1
  broadcasts_S256x1_S256x4096 : S256x1.Broadcasts S256x4096
  inb_S256x4096_S256x4096_0_0 : ∀ a, (![0, 0] : Fin 2 → Nat) a + S256x4096.size a ≤ S256x4096.size a
  h_S256x4096 : 0 < S256x4096.numel
  broadcasts_S256x1_S256x512 : S256x1.Broadcasts S256x512
  dot_S256x512_S4096x512_S256x4096_1_1_0_0_n_n_wf : DotDims.WF S256x512 S4096x512 S256x4096 [1] [1] [0] [0] [] []
  dot_S256x4096_S4096x512_S256x512_1_0_0_1_n_n_wf : DotDims.WF S256x4096 S4096x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S4096x512.size a
  hwx0_0 : ∀ i : grid0.Coords, EltTy.bits .f32 = 32 ∨ (Rect.block (s := S4096x512) S256x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x512.size a
  hwx0_1 : ∀ i : grid0.Coords, EltTy.bits .bf16 = 32 ∨ (Rect.block (s := S4096x512) S4096x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x512.size a ≤ S4096x512.size a
  hwx0_2 : ∀ i : grid0.Coords, EltTy.bits .bf16 = 32 ∨ (Rect.block (s := S4096x512) S4096x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S4096x512.size a
  hwx0_3 : ∀ i : grid0.Coords, EltTy.bits .f32 = 32 ∨ (Rect.block (s := S4096x512) S256x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S4096x4096.size a
  hwx0_4 : ∀ i : grid0.Coords, EltTy.bits .f32 = 32 ∨ (Rect.block (s := S4096x4096) S256x4096.size (cc0_transform_4 i) (hinb0_4 i)).WholeWords (EltTy.packing .f32)

variable [Facts₀]

def dot_S256x512_S4096x512_S256x4096_1_1_0_0_n_n : DotDims S256x512 S4096x512 S256x4096 where
  lhsContracting := [1]
  rhsContracting := [1]
  lhsNonContracting := [0]
  rhsNonContracting := [0]
  lhsBatch := []
  rhsBatch := []
  wf := dot_S256x512_S4096x512_S256x4096_1_1_0_0_n_n_wf
def dot_S256x4096_S4096x512_S256x512_1_0_0_1_n_n : DotDims S256x4096 S4096x512 S256x512 where
  lhsContracting := [1]
  rhsContracting := [0]
  lhsNonContracting := [0]
  rhsNonContracting := [1]
  lhsBatch := []
  rhsBatch := []
  wf := dot_S256x4096_S4096x512_S256x512_1_0_0_1_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4096x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S256x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S256x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x512 : Shape := ⟨2, ![4096, 512]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩

abbrev nBuf : Space → Nat
  | .hbm => 19
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x4096, .f32⟩
  | .hbm, ⟨4, _⟩ => ⟨S_, .f32⟩
  | .hbm, ⟨5, _⟩ => ⟨S4096, .f32⟩
  | .hbm, ⟨6, _⟩ => ⟨S_, .f32⟩
  | .hbm, ⟨7, _⟩ => ⟨S4096, .f32⟩
  | .hbm, ⟨8, _⟩ => ⟨S4096, .f32⟩
  | .hbm, ⟨9, _⟩ => ⟨S4096x1, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x4096, .f32⟩
  | .hbm, ⟨17, _⟩ => ⟨S4096x4096, .f32⟩
  | .hbm, ⟨18, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  dot_S4096x512_S4096x512_S4096x4096_1_1_0_0_n_n_wf : DotDims.WF S4096x512 S4096x512 S4096x4096 [1] [1] [0] [0] [] []
  dot_S4096x4096_S4096x512_S4096x512_1_0_0_1_n_n_wf : DotDims.WF S4096x4096 S4096x512 S4096x512 [1] [0] [0] [1] [] []

variable [Facts₀]

def dot_S4096x512_S4096x512_S4096x4096_1_1_0_0_n_n : DotDims S4096x512 S4096x512 S4096x4096 where
  lhsContracting := [1]
  rhsContracting := [1]
  lhsNonContracting := [0]
  rhsNonContracting := [0]
  lhsBatch := []
  rhsBatch := []
  wf := dot_S4096x512_S4096x512_S4096x4096_1_1_0_0_n_n_wf
def dot_S4096x4096_S4096x512_S4096x512_1_0_0_1_n_n : DotDims S4096x4096 S4096x512 S4096x512 where
  lhsContracting := [1]
  rhsContracting := [0]
  lhsNonContracting := [0]
  rhsNonContracting := [1]
  lhsBatch := []
  rhsBatch := []
  wf := dot_S4096x4096_S4096x512_S4096x512_1_0_0_1_n_n_wf

class Facts : Prop extends Facts₀ where

variable [Facts]
-- ==== Proof.Softmax.lean ====
/-
  Softmax attention, one query row at a time, on the extended reals.

  For a query row qr (its D features), keys k and values v (one row per key j):
    score j   = ∑ d, qr d * k j d
    top       = the maximum of the scores, folded from −∞
    e j       = exp (score j − top)
    total     = ∑ j, e j
  One arrangement normalises by a reciprocal taken once per row,
    weight j  = e j * (1 / total),          result c = (∑ j, e j * v j c) * (1 / total),
  the other divides every exponential before the second product,
    weight' j = e j / total,                result' c = ∑ j, (e j / total) * v j c.
  When every score and every value is a real number the two agree: the maximum of finitely many
  reals (at least one) is real, so every e j is a positive real, total is a positive real, division by it
  is multiplication by its reciprocal, and the reciprocal moves across the finite sum by distributivity in ℝ.
-/
import Idealize.ShloMosaic.PureOps.Ideal
import Idealize.ShloMosaic.Lib.IdealHost

noncomputable section

open scoped BigOperators

namespace Cert.Attention

open Idealize.ShloMosaic

/-! ## The two constant words -/

/-- The value both programs fold the row maximum from: the single-precision pattern of −∞. -/
abbrev negInf : EReal := Ideal.ofBits .f32 0xFF800000#32
/-- The numerator of the reciprocal taken once per row: the single-precision pattern of one. -/
abbrev unit : EReal := Ideal.ofBits .f32 0x3F800000#32

theorem negInf_eq : negInf = ⊥ := by simp [Ideal.ofBits, Ideal.ieee]
theorem unit_eq : unit = 1 := Ideal.ofBits_one_f32

/-! ## One row -/

section Row

variable {J D C : Type} [Fintype J] [Fintype D]

/-- A query row's score against key row j: the inner product over the features. -/
def score (qr : D → EReal) (k : J → D → EReal) (j : J) : EReal := ∑ d, qr d * k j d

/-- The greatest of a row's scores, folded from the start value w (−∞ in both programs). -/
def top (w : EReal) (s : J → EReal) : EReal := (Finset.univ : Finset J).fold max w s

/-- A score's exponential after the row's greatest score is subtracted. -/
def shifted (w : EReal) (s : J → EReal) (j : J) : EReal := Ideal.exp (s j - top w s)

/-- The row's sum of shifted exponentials. -/
def total (w : EReal) (s : J → EReal) : EReal := ∑ j, shifted w s j

/-- The reciprocal of the row's sum, taken once (u is the numerator, one in the program). -/
def recip (w u : EReal) (s : J → EReal) : EReal := Ideal.div u (total w s)

/-- Attention weight, reciprocal arrangement. -/
def weightMul (w u : EReal) (s : J → EReal) (j : J) : EReal := shifted w s j * recip w u s

/-- Attention weight, quotient arrangement. -/
def weightDiv (w : EReal) (s : J → EReal) (j : J) : EReal := Ideal.div (shifted w s j) (total w s)

/-- The row of the result, reciprocal arrangement: the unnormalised sum scaled afterwards. -/
def resultMul (w u : EReal) (s : J → EReal) (v : J → C → EReal) (c : C) : EReal :=
  (∑ j, shifted w s j * v j c) * recip w u s

/-- The row of the result, quotient arrangement: normalised weights against the values. -/
def resultDiv (w : EReal) (s : J → EReal) (v : J → C → EReal) (c : C) : EReal :=
  ∑ j, weightDiv w s j * v j c

end Row

/-! ## Real entries -/

/-- A finite sum of real numbers, taken in the extended reals, is the real sum. -/
theorem coe_sum {ι : Type} (t : Finset ι) (f : ι → ℝ) :
    ∑ i ∈ t, ((f i : ℝ) : EReal) = ((∑ i ∈ t, f i : ℝ) : EReal) := by
  classical
  induction t using Finset.induction_on with
  | empty => simp
  | insert a t ha ih => rw [Finset.sum_insert ha, Finset.sum_insert ha, ih, EReal.coe_add]

section Laws

variable {J D C : Type} [Fintype J] [Fintype D]

/-- Real features give real scores. -/
theorem score_real (qr : D → ℝ) (k : J → D → ℝ) (j : J) :
    score (fun d => (qr d : EReal)) (fun j d => (k j d : EReal)) j = ((∑ d, qr d * k j d : ℝ) : EReal) := by
  unfold score
  simp only [← EReal.coe_mul]
  exact coe_sum _ _

variable [Nonempty J]

/-- The greatest of finitely many real scores (at least one), folded from −∞, is a real number. -/
theorem top_real (s : J → ℝ) : ∃ r : ℝ, top ⊥ (fun j => (s j : EReal)) = (r : EReal) := by
  have hlt : top ⊥ (fun j => (s j : EReal)) < ⊤ := by
    unfold top
    rw [Finset.fold_max_lt]
    exact ⟨bot_lt_top, fun j _ => EReal.coe_lt_top _⟩
  have hgt : ⊥ < top ⊥ (fun j => (s j : EReal)) := by
    unfold top
    rw [Finset.lt_fold_max]
    obtain ⟨j0⟩ := ‹Nonempty J›
    exact Or.inr ⟨j0, Finset.mem_univ _, EReal.bot_lt_coe _⟩
  exact ⟨_, (EReal.coe_toReal hlt.ne hgt.ne').symm⟩

/-- With real scores every shifted exponential is a positive real and their sum is a positive real. -/
theorem shifted_real (s : J → ℝ) : ∃ (e : J → ℝ) (L : ℝ), (∀ j, 0 < e j) ∧ 0 < L
    ∧ (∀ j, shifted ⊥ (fun j => (s j : EReal)) j = (e j : EReal))
    ∧ total ⊥ (fun j => (s j : EReal)) = (L : EReal) := by
  obtain ⟨r, hr⟩ := top_real s
  refine ⟨fun j => Real.exp (s j - r), ∑ j, Real.exp (s j - r), fun j => Real.exp_pos _,
    Finset.sum_pos (fun j _ => Real.exp_pos _) Finset.univ_nonempty, ?_, ?_⟩
  · intro j
    unfold shifted
    rw [hr, ← EReal.coe_sub]
    rfl
  · unfold total
    rw [← coe_sum]
    refine Finset.sum_congr rfl fun j _ => ?_
    unfold shifted
    rw [hr, ← EReal.coe_sub]
    rfl

/-- THE WEIGHTS: dividing each exponential by the row's sum is multiplying it by the sum's reciprocal. -/
theorem weightDiv_eq_weightMul (s : J → ℝ) (j : J) :
    weightDiv ⊥ (fun j => (s j : EReal)) j = weightMul ⊥ 1 (fun j => (s j : EReal)) j := by
  obtain ⟨e, L, -, hL, he, hT⟩ := shifted_real s
  unfold weightDiv weightMul recip
  rw [hT, Ideal.div_coe hL.ne', Ideal.div_coe hL.ne', one_mul]

/-- THE RESULT: normalised weights against the values are the unnormalised sum scaled afterwards, the
    reciprocal of the row's sum moving across the finite sum of reals. -/
theorem resultDiv_eq_resultMul (s : J → ℝ) (v : J → C → ℝ) (c : C) :
    resultDiv ⊥ (fun j => (s j : EReal)) (fun j c => (v j c : EReal)) c
      = resultMul ⊥ 1 (fun j => (s j : EReal)) (fun j c => (v j c : EReal)) c := by
  obtain ⟨e, L, -, hL, he, hT⟩ := shifted_real s
  unfold resultDiv resultMul weightDiv recip
  rw [hT]
  simp only [he, Ideal.div_coe hL.ne', one_mul, ← EReal.coe_mul, coe_sum]
  rw [Finset.sum_mul]
  exact congrArg _ (Finset.sum_congr rfl fun j _ => by ring)

end Laws

end Cert.Attention

end
-- ==== Proof.LibDot.lean ====
/-
  A matrix product read at an index.

  For dimension numbers that contract the left operand's axis 1 against the right operand's axis 0, with no batch
  axes (the ordinary product of an M×K matrix with a K×N matrix), the contraction sum at the output index (r, c) is
  the sum over k of the left operand at (r, k) times the right operand at (k, c). This holds for a kernel's matrix
  unit and for the host's dot product alike: both are stated over the same dimension-number record.
-/
import Idealize.ShloMosaic.Lib.ValueIdx
import Idealize.ShloMosaic.PureOps.Ideal.Laws

noncomputable section

namespace Cert.LibDot

open Idealize.ShloMosaic Idealize.ShloMosaic.ValueIdx

/-- The contraction sum of a plain matrix product at the output index `(r, c)`. -/
theorem sum_std {M K N : ℕ} (d : DotDims (⟨2, ![M, K]⟩ : Shape) (⟨2, ![K, N]⟩ : Shape) (⟨2, ![M, N]⟩ : Shape))
    (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (w : (⟨2, ![K, N]⟩ : Shape).Idx → EReal) (r : Fin M) (c : Fin N) :
    ∑ q : d.contr.Idx, l (d.lhsIdx (ix2 r c) q) * w (d.rhsIdx (ix2 r c) q)
      = ∑ k : Fin K, l (ix2 r k) * w (ix2 k c) := by
  have hr : d.contr.rank = 1 := by rw [d.rank_contr, hlc]; rfl
  have hs : d.contr.size ⟨0, by omega⟩ = K := by
    have h := d.size_contr 0 (by rw [hlc]; exact Nat.one_pos)
    have h1 : d.lhsContracting[0]'(by rw [hlc]; exact Nat.one_pos) = (1 : Fin 2) := by simp [hlc]
    rw [h1] at h
    exact h
  -- a coordinate of an index depends on the axis's position only
  have key : ∀ (j : (⟨2, ![M, N]⟩ : Shape).Idx) (p q : Nat) (hp : p < 2) (hq : q < 2), p = q →
      (j ⟨p, hp⟩).val = (j ⟨q, hq⟩).val := fun j p q hp hq h => by subst h; rfl
  refine (Equiv.sum_comp (contrEquiv1 d K hr hs).symm _).symm.trans ?_
  refine Finset.sum_congr rfl fun k _ => ?_
  -- the left operand is read at (r, k)
  have hL : d.lhsIdx (ix2 r c) ((contrEquiv1 d K hr hs).symm k) = ix2 r k := by
    funext a
    apply Fin.ext
    match a with
    | ⟨0, h0⟩ =>
      have hb : (⟨0, h0⟩ : Fin 2) ∉ d.lhsBatch := by rw [hlb]; exact List.not_mem_nil
      have hn : (⟨0, h0⟩ : Fin 2) ∈ d.lhsNonContracting := by rw [hln]; exact List.mem_singleton.mpr rfl
      unfold DotDims.lhsIdx
      rw [dif_neg hb, dif_pos hn]
      simp only [Fin.val_cast]
      exact key (ix2 r c) _ 0 _ (by omega) (by simp [hlb, hln])
    | ⟨1, h1⟩ =>
      have h := d.lhsIdx_val_of_single hlc (ix2 r c) ((contrEquiv1 d K hr hs).symm k)
      rw [contrEquiv1_symm_val] at h
      exact h
  -- the right operand is read at (k, c)
  have hR : d.rhsIdx (ix2 r c) ((contrEquiv1 d K hr hs).symm k) = ix2 k c := by
    funext a
    apply Fin.ext
    match a with
    | ⟨0, h0⟩ =>
      have h := d.rhsIdx_val_of_single hrc (ix2 r c) ((contrEquiv1 d K hr hs).symm k)
      rw [contrEquiv1_symm_val] at h
      exact h
    | ⟨1, h1⟩ =>
      have hb : (⟨1, h1⟩ : Fin 2) ∉ d.rhsBatch := by rw [hrb]; exact List.not_mem_nil
      have hn : (⟨1, h1⟩ : Fin 2) ∈ d.rhsNonContracting := by rw [hrn]; exact List.mem_singleton.mpr rfl
      unfold DotDims.rhsIdx
      rw [dif_neg hb, dif_pos hn]
      simp only [Fin.val_cast]
      exact key (ix2 r c) _ 1 _ (by omega) (by simp [hlb, hln, hrn])
  rw [hL, hR]

end Cert.LibDot

end
-- ==== Proof.LibDotNT.lean ====
/-
  A product against a transposed right operand, read at an index.

  For dimension numbers that contract the left operand's axis 1 against the right operand's axis 1, with no batch
  axes (an M×K matrix against an N×K matrix, every row of the one with every row of the other), the contraction sum at
  the output index (r, c) is the sum over k of the left operand at (r, k) times the right operand at (c, k): the inner
  product of row r of the left with row c of the right. It holds for a kernel's matrix unit and for the host's dot
  product alike, both being stated over the same record of dimension numbers.
-/
import Idealize.ShloMosaic.Lib.ValueIdx
import Idealize.ShloMosaic.PureOps.Ideal.Laws

noncomputable section

namespace Cert.LibDotNT

open Idealize.ShloMosaic Idealize.ShloMosaic.ValueIdx

section

variable {M K N : ℕ} (d : DotDims (⟨2, ![M, K]⟩ : Shape) (⟨2, ![N, K]⟩ : Shape) (⟨2, ![M, N]⟩ : Shape))

/-- An output index's coordinate is a function of the axis's position alone. -/
private theorem coord_congr (j : (⟨2, ![M, N]⟩ : Shape).Idx) (p q : Nat) (hp : p < 2) (hq : q < 2) (h : p = q) :
    (j ⟨p, hp⟩).val = (j ⟨q, hq⟩).val := by subst h; rfl

/-- The left operand's row is the output's row: its axis 0 is the one kept axis, first among the output's. -/
theorem lhs_row (hln : d.lhsNonContracting = [0]) (hlb : d.lhsBatch = [])
    (j : (⟨2, ![M, N]⟩ : Shape).Idx) (q : d.contr.Idx) : (d.lhsIdx j q 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_congr j _ 0 _ (by omega) (by simp [hlb, hln])

/-- The right operand's row is the output's column: its axis 0 is kept, and comes after the left operand's kept axis. -/
theorem rhs_row (hln : d.lhsNonContracting = [0]) (hrn : d.rhsNonContracting = [0]) (hlb : d.lhsBatch = [])
    (hrb : d.rhsBatch = []) (j : (⟨2, ![M, N]⟩ : Shape).Idx) (q : d.contr.Idx) : (d.rhsIdx j q 0).val = (j 1).val := by
  have hb : (0 : Fin 2) ∉ d.rhsBatch := by rw [hrb]; exact List.not_mem_nil
  have hn : (0 : Fin 2) ∈ d.rhsNonContracting := by rw [hrn]; exact List.mem_singleton.mpr rfl
  unfold DotDims.rhsIdx
  rw [dif_neg hb, dif_pos hn]
  simp only [Fin.val_cast]
  exact coord_congr j _ 1 _ (by omega) (by simp [hlb, hln, hrn])

/-- The contraction sum at the output index (r, c): row r of the left operand against row c of the right. -/
theorem sum_nt (hlc : d.lhsContracting = [1]) (hrc : d.rhsContracting = [1])
    (hln : d.lhsNonContracting = [0]) (hrn : d.rhsNonContracting = [0])
    (hlb : d.lhsBatch = []) (hrb : d.rhsBatch = [])
    (l : (⟨2, ![M, K]⟩ : Shape).Idx → EReal) (w : (⟨2, ![N, K]⟩ : Shape).Idx → EReal) (r : Fin M) (c : Fin N) :
    ∑ q : d.contr.Idx, l (d.lhsIdx (ix2 r c) q) * w (d.rhsIdx (ix2 r c) q)
      = ∑ k : Fin K, l (ix2 r k) * w (ix2 c k) := by
  have hr : d.contr.rank = 1 := by rw [d.rank_contr, hlc]; rfl
  have hs : d.contr.size ⟨0, by omega⟩ = K := by
    have h := d.size_contr 0 (by rw [hlc]; exact Nat.one_pos)
    have h1 : d.lhsContracting[0]'(by rw [hlc]; exact Nat.one_pos) = (1 : Fin 2) := by simp [hlc]
    rw [h1] at h
    exact h
  refine (Equiv.sum_comp (contrEquiv1 d K hr hs).symm _).symm.trans (Finset.sum_congr rfl fun k _ => ?_)
  have hk := contrEquiv1_symm_val d K hr hs k
  have hL : d.lhsIdx (ix2 r c) ((contrEquiv1 d K hr hs).symm k) = ix2 r k := funext fun a => Fin.ext (by
    match a with
    | ⟨0, _⟩ => exact lhs_row d hln hlb _ _
    | ⟨1, _⟩ => exact (d.lhsIdx_val_of_single hlc _ _).trans hk)
  have hR : d.rhsIdx (ix2 r c) ((contrEquiv1 d K hr hs).symm k) = ix2 c k := funext fun a => Fin.ext (by
    match a with
    | ⟨0, _⟩ => exact rhs_row d hln hrn hlb hrb _ _
    | ⟨1, _⟩ => exact (d.rhsIdx_val_of_single hrc _ _).trans hk)
  rw [hL, hR]

end

end Cert.LibDotNT

end
-- ==== Proof.KernelRows.lean ====
/-
  The kernel body's stored values, read one element at a time.

  At a grid point the body holds a block of 256 query rows (x0), every key row (x1) and every value row (x2).
  Row p of what it stores in the weights block is the softmax of row p's scores in the reciprocal arrangement
  (each shifted exponential times the reciprocal of the row's sum), and row p of what it stores in the result block is
  the unnormalised sum of exponentials against the values, scaled by that reciprocal afterwards. The two matrix
  products are inner products of rows (scores: query row against key row; result: exponentials against a value
  column); the two keep-dimension columns (row maximum, row reciprocal) are read back at their row; the narrowing
  format changes are the identity on extended reals.
-/
import proofs.«405040_j72129680769346_3_alg».proof.Proof.Gen.KernelIdeal.Skeleton
import proofs.«405040_j72129680769346_3_alg».proof.Proof.Softmax
import proofs.«405040_j72129680769346_3_alg».proof.Proof.LibDot
import proofs.«405040_j72129680769346_3_alg».proof.Proof.LibDotNT
import Idealize.ShloMosaic.Lib.ValueIdx
import Idealize.ShloMosaic.Lib.Pipeline.Value
import Idealize.ShloMosaic.PureOps.Ideal.Laws

noncomputable section

namespace Cert.KernelIdeal.Rows

open Cert.KernelIdeal Cert.KernelIdeal.Gen Idealize.ShloMosaic Idealize.ShloMosaic.ValueIdx Cert.Attention

/-- Row p of a block of 256 query rows, as a function of the feature. -/
abbrev qrow (x0 : FVec Ideal S256x512 .f32) (p : Fin 256) : Fin 512 → EReal := fun d => x0 (ix2 p d)
/-- A 4096×512 array by rows. -/
abbrev rows (x : FVec Ideal S4096x512 .bf16) : Fin 4096 → Fin 512 → EReal := fun j d => x (ix2 j d)

/-! ## The keep-dimension column, and its two broadcasts, read at an index -/

section Layout

variable {α : Type}

/-- A vector of 256 entries cast to a 256×1 column holds entry p in row p. -/
theorem col_apply (y : S256.Idx → α) (p : Fin 256) :
    shapeCast S256x1 y shapeCasts_S256_S256x1 (ix2 p (0 : Fin 1)) = y (ix1 p) :=
  shapeCast_apply y shapeCasts_S256_S256x1 (ix2 p (0 : Fin 1)) (ix1 p)
    (by rw [Shape.rowMajor_val_one, Shape.rowMajor_val_two]; show p.val = p.val * 1 + 0; omega)

/-- The column broadcast along 4096 lanes holds row p's entry everywhere in row p. -/
theorem wide_apply (y : S256x1.Idx → α) (p : Fin 256) (j : Fin 4096) :
    broadcastTo S256x4096 y broadcasts_S256x1_S256x4096 (ix2 p j) = y (ix2 p (0 : Fin 1)) :=
  broadcastTo_apply y broadcasts_S256x1_S256x4096 (ix2 p j) (ix2 p (0 : Fin 1)) (fun a => match a with
    | ⟨0, _⟩ => by show p.val = (if (256 : Nat) = 1 then 0 else p.val); rw [if_neg (by decide)]
    | ⟨1, _⟩ => by show 0 = (if (1 : Nat) = 1 then 0 else j.val); rw [if_pos rfl])

/-- The column broadcast along 512 lanes likewise. -/
theorem narrow_apply (y : S256x1.Idx → α) (p : Fin 256) (c : Fin 512) :
    broadcastTo S256x512 y broadcasts_S256x1_S256x512 (ix2 p c) = y (ix2 p (0 : Fin 1)) :=
  broadcastTo_apply y broadcasts_S256x1_S256x512 (ix2 p c) (ix2 p (0 : Fin 1)) (fun a => match a with
    | ⟨0, _⟩ => by show p.val = (if (256 : Nat) = 1 then 0 else p.val); rw [if_neg (by decide)]
    | ⟨1, _⟩ => by show 0 = (if (1 : Nat) = 1 then 0 else c.val); rw [if_pos rfl])

end Layout

/-! ## The two lane reductions of a 256×4096 block, read at a row -/

/-- The lane maximum of row p: the fold of max over the row's 4096 entries from −∞. -/
theorem rowmax_apply (v : FVec Ideal S256x4096 .f32) (hφ : FKind.Formats .f32)
    (hacc : (0xFF800000#32 : BitVec (FTy.bits .f32)) = FKind.maximumf.neutral .f32 hφ) (p : Fin 256) :
    multiReduction .maximumf [1] S256 v 0xFF800000#32 reduces_S256x4096_S256 hφ hacc (ix1 p)
      = top negInf (fun k : Fin 4096 => v (ix2 p k)) := by
  refine (Ideal.multiReduction_maximumf_single v _ reduces_S256x4096_S256 hφ hacc (ix1 p)).trans ?_
  show (Finset.univ : Finset (Fin 4096)).fold max negInf (fun k => v (reduces_S256x4096_S256.lift (ix1 p) k))
    = (Finset.univ : Finset (Fin 4096)).fold max negInf (fun k => v (ix2 p k))
  refine congrArg (fun f => (Finset.univ : Finset (Fin 4096)).fold max negInf f) (funext fun k => congrArg v ?_)
  exact funext fun a => Fin.ext (by match a with | ⟨0, _⟩ => rfl | ⟨1, _⟩ => rfl)

/-- The lane sum of row p: the sum of the row's 4096 entries. -/
theorem rowsum_apply (v : FVec Ideal S256x4096 .f32) (hφ : FKind.Formats .f32)
    (hacc : (0x00000000#32 : BitVec (FTy.bits .f32)) = FKind.add.neutral .f32 hφ) (p : Fin 256) :
    multiReduction .add [1] S256 v 0x00000000#32 reduces_S256x4096_S256 hφ hacc (ix1 p)
      = ∑ k : Fin 4096, v (ix2 p k) := by
  refine (Ideal.multiReduction_add_single v _ reduces_S256x4096_S256 hφ hacc (ix1 p)).trans ?_
  show ∑ k : Fin 4096, v (reduces_S256x4096_S256.lift (ix1 p) k) = ∑ k : Fin 4096, v (ix2 p k)
  refine Finset.sum_congr rfl fun k _ => congrArg v ?_
  exact funext fun a => Fin.ext (by match a with | ⟨0, _⟩ => rfl | ⟨1, _⟩ => rfl)

/-! ## The body's intermediate vectors -/

section Body

variable (x0 : FVec Ideal S256x512 .f32) (x1 x2 : FVec Ideal S4096x512 .bf16)

/-- The block of scores: the query block against every key row. -/
def scoreBlock : FVec Ideal S256x4096 .f32 :=
  matmul dot_S256x512_S4096x512_S256x4096_1_1_0_0_n_n none (truncf .bf16 x0 bitsLt_bf16_f32)
    (shapeCast S4096x512 x1 shapeCasts_S4096x512_S4096x512) (constant S256x4096 .f32 0x00000000#32)

/-- Each row's greatest score. -/
def topBlock : FVec Ideal S256 .f32 :=
  multiReduction .maximumf [1] S256 (scoreBlock x0 x1) 0xFF800000#32 reduces_S256x4096_S256 (.inl rfl) rfl

/-- The shifted exponentials. -/
def expBlock : FVec Ideal S256x4096 .f32 :=
  exp (subf (scoreBlock x0 x1)
    (broadcastTo S256x4096 (shapeCast S256x1 (topBlock x0 x1) shapeCasts_S256_S256x1) broadcasts_S256x1_S256x4096))

/-- Each row's sum of exponentials. -/
def sumBlock : FVec Ideal S256 .f32 :=
  multiReduction .add [1] S256 (expBlock x0 x1) 0x00000000#32 reduces_S256x4096_S256 (.inl rfl) rfl

/-- Each row's reciprocal, as a column. -/
def recipBlock : FVec Ideal S256x1 .f32 :=
  divf (broadcast S256x1 (Scalar.ofBits .f32 0x3F800000#32)) (shapeCast S256x1 (sumBlock x0 x1) shapeCasts_S256_S256x1)

/-- The body's payloads are these vectors, composed as the body composes them. -/
theorem pay1_eq : k0_pay1 x0 x1 = expBlock x0 x1 := rfl
theorem pay2_eq : k0_pay2 x0 x1 = recipBlock x0 x1 := rfl
theorem pay3_eq : k0_pay3 x0 x1
    = mulf (expBlock x0 x1) (broadcastTo S256x4096 (recipBlock x0 x1) broadcasts_S256x1_S256x4096) := rfl
theorem pay4_eq : k0_pay4 x0 x1 x2
    = mulf (matmul dot_S256x4096_S4096x512_S256x512_1_0_0_1_n_n none (truncf .bf16 (expBlock x0 x1) bitsLt_bf16_f32)
        (shapeCast S4096x512 x2 shapeCasts_S4096x512_S4096x512) (constant S256x512 .f32 0x00000000#32))
      (broadcastTo S256x512 (recipBlock x0 x1) broadcasts_S256x1_S256x512) := rfl

/-! ## Each of them at an index -/

/-- A score is the inner product of its query row and its key row. -/
theorem scoreBlock_apply (p : Fin 256) (j : Fin 4096) :
    scoreBlock x0 x1 (ix2 p j) = score (qrow x0 p) (rows x1) j := by
  unfold scoreBlock
  rw [shapeCast_self]
  refine (Ideal.matmul_constant_zero_apply _ none _ _ (ix2 p j)).trans ?_
  exact Cert.LibDotNT.sum_nt dot_S256x512_S4096x512_S256x4096_1_1_0_0_n_n rfl rfl rfl rfl rfl rfl _ _ p j

theorem topBlock_apply (p : Fin 256) :
    topBlock x0 x1 (ix1 p) = top negInf (score (qrow x0 p) (rows x1)) :=
  (rowmax_apply (scoreBlock x0 x1) _ _ p).trans
    (congrArg (top negInf) (funext fun k => scoreBlock_apply x0 x1 p k))

theorem expBlock_apply (p : Fin 256) (j : Fin 4096) :
    expBlock x0 x1 (ix2 p j) = shifted negInf (score (qrow x0 p) (rows x1)) j := by
  have hs := scoreBlock_apply x0 x1 p j
  have hm : broadcastTo S256x4096 (shapeCast S256x1 (topBlock x0 x1) shapeCasts_S256_S256x1) broadcasts_S256x1_S256x4096 (ix2 p j)
      = top negInf (score (qrow x0 p) (rows x1)) :=
    (wide_apply _ p j).trans ((col_apply _ p).trans (topBlock_apply x0 x1 p))
  show Ideal.exp (scoreBlock x0 x1 (ix2 p j)
      - broadcastTo S256x4096 (shapeCast S256x1 (topBlock x0 x1) shapeCasts_S256_S256x1) broadcasts_S256x1_S256x4096 (ix2 p j))
    = Ideal.exp (score (qrow x0 p) (rows x1) j - top negInf (score (qrow x0 p) (rows x1)))
  rw [hs, hm]

theorem sumBlock_apply (p : Fin 256) :
    sumBlock x0 x1 (ix1 p) = total negInf (score (qrow x0 p) (rows x1)) :=
  (rowsum_apply (expBlock x0 x1) _ _ p).trans
    (Finset.sum_congr rfl fun k _ => expBlock_apply x0 x1 p k)

theorem recipBlock_apply (p : Fin 256) :
    recipBlock x0 x1 (ix2 p (0 : Fin 1)) = recip negInf unit (score (qrow x0 p) (rows x1)) := by
  have hsum : shapeCast S256x1 (sumBlock x0 x1) shapeCasts_S256_S256x1 (ix2 p (0 : Fin 1))
      = total negInf (score (qrow x0 p) (rows x1)) := (col_apply _ p).trans (sumBlock_apply x0 x1 p)
  show Ideal.div unit (shapeCast S256x1 (sumBlock x0 x1) shapeCasts_S256_S256x1 (ix2 p (0 : Fin 1)))
    = Ideal.div unit (total negInf (score (qrow x0 p) (rows x1)))
  rw [hsum]

/-- WHAT THE BODY STORES IN THE WEIGHTS BLOCK, at row p and key j. -/
theorem weights_apply (p : Fin 256) (j : Fin 4096) :
    k0_pay3 (F := Ideal) x0 x1 (ix2 p j) = weightMul negInf unit (score (qrow x0 p) (rows x1)) j := by
  rw [pay3_eq]
  have hr : broadcastTo S256x4096 (recipBlock x0 x1) broadcasts_S256x1_S256x4096 (ix2 p j)
      = recip negInf unit (score (qrow x0 p) (rows x1)) := (wide_apply _ p j).trans (recipBlock_apply x0 x1 p)
  show expBlock x0 x1 (ix2 p j) * broadcastTo S256x4096 (recipBlock x0 x1) broadcasts_S256x1_S256x4096 (ix2 p j)
    = shifted negInf (score (qrow x0 p) (rows x1)) j * recip negInf unit (score (qrow x0 p) (rows x1))
  rw [hr, expBlock_apply]

/-- WHAT THE BODY STORES IN THE RESULT BLOCK, at row p and column c. -/
theorem result_apply (p : Fin 256) (c : Fin 512) :
    k0_pay4 (F := Ideal) x0 x1 x2 (ix2 p c) = resultMul negInf unit (score (qrow x0 p) (rows x1)) (rows x2) c := by
  rw [pay4_eq]
  have hr : broadcastTo S256x512 (recipBlock x0 x1) broadcasts_S256x1_S256x512 (ix2 p c)
      = recip negInf unit (score (qrow x0 p) (rows x1)) := (narrow_apply _ p c).trans (recipBlock_apply x0 x1 p)
  have hmm : matmul dot_S256x4096_S4096x512_S256x512_1_0_0_1_n_n none (truncf .bf16 (expBlock x0 x1) bitsLt_bf16_f32)
        (shapeCast S4096x512 x2 shapeCasts_S4096x512_S4096x512) (constant S256x512 .f32 0x00000000#32) (ix2 p c)
      = ∑ j : Fin 4096, shifted negInf (score (qrow x0 p) (rows x1)) j * rows x2 j c := by
    rw [shapeCast_self]
    refine (Ideal.matmul_constant_zero_apply _ none _ _ (ix2 p c)).trans ?_
    refine (Cert.LibDot.sum_std dot_S256x4096_S4096x512_S256x512_1_0_0_1_n_n rfl rfl rfl rfl rfl rfl _ _ p c).trans ?_
    exact Finset.sum_congr rfl fun j _ => congrArg (· * x2 (ix2 j c)) (expBlock_apply x0 x1 p j)
  show matmul dot_S256x4096_S4096x512_S256x512_1_0_0_1_n_n none (truncf .bf16 (expBlock x0 x1) bitsLt_bf16_f32)
        (shapeCast S4096x512 x2 shapeCasts_S4096x512_S4096x512) (constant S256x512 .f32 0x00000000#32) (ix2 p c)
      * broadcastTo S256x512 (recipBlock x0 x1) broadcasts_S256x1_S256x512 (ix2 p c)
    = (∑ j : Fin 4096, shifted negInf (score (qrow x0 p) (rows x1)) j * rows x2 j c) * recip negInf unit (score (qrow x0 p) (rows x1))
  rw [hr, hmm]

end Body

end Cert.KernelIdeal.Rows

end
-- ==== Proof.Whole.lean ====
/-
  Attention over whole arrays.

  Queries, keys and values are 4096×512 arrays; the weights are a 4096×4096 array and the result a 4096×512 array.
  Row n of either output depends on query row n and on all keys (and values): it is the row-wise softmax of that
  query row's scores. Both arrangements are stated here as functions of the three arrays, index by index, and they are
  equal whenever every entry of the three arrays is a real number.
-/
import proofs.«405040_j72129680769346_3_alg».proof.Proof.Softmax
import Idealize.ShloMosaic.Lib.ValueIdx

noncomputable section

namespace Cert.Attention

open Idealize.ShloMosaic Idealize.ShloMosaic.ValueIdx

/-- A 4096×512 array of extended reals. -/
abbrev Arr : Type := (⟨2, ![4096, 512]⟩ : Shape).Idx → EReal
/-- A 4096×4096 array of extended reals. -/
abbrev Sq : Type := (⟨2, ![4096, 4096]⟩ : Shape).Idx → EReal

/-- Row n of an array, as a function of the feature. -/
abbrev rowOf (x : Arr) (n : Fin 4096) : Fin 512 → EReal := fun d => x (ix2 n d)
/-- An array by rows. -/
abbrev rowsOf (x : Arr) : Fin 4096 → Fin 512 → EReal := fun j d => x (ix2 j d)

/-- The weights, reciprocal arrangement. -/
def weightsMul (q k : Arr) : Sq := fun i => weightMul negInf unit (score (rowOf q (i 0)) (rowsOf k)) (i 1)
/-- The result, reciprocal arrangement. -/
def outputMul (q k v : Arr) : Arr := fun i => resultMul negInf unit (score (rowOf q (i 0)) (rowsOf k)) (rowsOf v) (i 1)
/-- The weights, quotient arrangement. -/
def weightsDiv (q k : Arr) : Sq := fun i => weightDiv negInf (score (rowOf q (i 0)) (rowsOf k)) (i 1)
/-- The result, quotient arrangement. -/
def outputDiv (q k v : Arr) : Arr := fun i => resultDiv negInf (score (rowOf q (i 0)) (rowsOf k)) (rowsOf v) (i 1)

/-- Every entry of the array is a real number. -/
def AllReal (x : Arr) : Prop := ∀ i, ∃ r : ℝ, x i = (r : EReal)

/-- Real queries and keys give real scores in every row. -/
theorem scores_real (q k : (⟨2, ![4096, 512]⟩ : Shape).Idx → ℝ) (n : Fin 4096) :
    score (rowOf (fun i => (q i : EReal)) n) (rowsOf fun i => (k i : EReal))
      = fun j => ((∑ d, q (ix2 n d) * k (ix2 j d) : ℝ) : EReal) :=
  funext fun j => score_real (fun d => q (ix2 n d)) (fun j d => k (ix2 j d)) j

/-- With real entries the two arrangements of the weights are one array. -/
theorem weightsDiv_eq (q k : Arr) (hq : AllReal q) (hk : AllReal k) : weightsDiv q k = weightsMul q k := by
  choose q' hq' using hq
  choose k' hk' using hk
  obtain rfl : q = fun i => (q' i : EReal) := funext hq'
  obtain rfl : k = fun i => (k' i : EReal) := funext hk'
  funext i
  obtain ⟨n, j, rfl⟩ : ∃ (n : Fin 4096) (j : Fin 4096), i = ix2 n j := ⟨i 0, i 1, eq_ix2 i⟩
  show weightDiv negInf (score (rowOf (fun i => (q' i : EReal)) n) (rowsOf fun i => (k' i : EReal))) j
    = weightMul negInf unit (score (rowOf (fun i => (q' i : EReal)) n) (rowsOf fun i => (k' i : EReal))) j
  rw [scores_real, negInf_eq, unit_eq]
  exact weightDiv_eq_weightMul _ _

/-- With real entries the two arrangements of the result are one array. -/
theorem outputDiv_eq (q k v : Arr) (hq : AllReal q) (hk : AllReal k) (hv : AllReal v) :
    outputDiv q k v = outputMul q k v := by
  choose q' hq' using hq
  choose k' hk' using hk
  choose v' hv' using hv
  obtain rfl : q = fun i => (q' i : EReal) := funext hq'
  obtain rfl : k = fun i => (k' i : EReal) := funext hk'
  obtain rfl : v = fun i => (v' i : EReal) := funext hv'
  funext i
  obtain ⟨n, c, rfl⟩ : ∃ (n : Fin 4096) (c : Fin 512), i = ix2 n c := ⟨i 0, i 1, eq_ix2 i⟩
  show resultDiv negInf (score (rowOf (fun i => (q' i : EReal)) n) (rowsOf fun i => (k' i : EReal)))
      (rowsOf fun i => (v' i : EReal)) c
    = resultMul negInf unit (score (rowOf (fun i => (q' i : EReal)) n) (rowsOf fun i => (k' i : EReal)))
      (rowsOf fun i => (v' i : EReal)) c
  rw [scores_real, negInf_eq, unit_eq]
  exact resultDiv_eq_resultMul _ (fun j c => v' (ix2 j c)) _

end Cert.Attention

end
-- ==== Proof.KernelArrays.lean ====
/-
  From blocks to arrays: what the kernel's two output arrays hold after the run.

  The grid has 16 points; point t holds query rows 256·t … 256·t + 255 and every key and value row, and writes
  back rows 256·t … 256·t + 255 of the result (all 512 columns) and of the weights (all 4096 columns). Row p of what the
  body stores depends on row p of its query block only, so the block written at point t is the block of ONE
  whole-array function of the arrays the region finds: the reciprocal arrangement of softmax attention. The 16 blocks
  cover each output array, so each array ends holding that function. The keys and values the region finds are the
  arguments after a narrowing format change, which is the identity on extended reals.
-/
import proofs.«405040_j72129680769346_3_alg».proof.Proof.Gen.KernelIdeal.Value
import proofs.«405040_j72129680769346_3_alg».proof.Proof.KernelRows
import proofs.«405040_j72129680769346_3_alg».proof.Proof.Whole
import Idealize.ShloMosaic.Lib.Pipeline.Value
import Idealize.ShloMosaic.Lib.StableHlo.Run

noncomputable section

namespace Cert.KernelIdeal.Arrays

open Cert.KernelIdeal Cert.KernelIdeal.Gen Cert.KernelIdeal.Rows Cert.Attention
open Idealize.ShloMosaic Idealize.ShloMosaic.TcCoe Idealize.SL.Sem Idealize.ShloMosaic.ValueIdx
open Idealize.ShloMosaic.Pipeline (Dat)

/-! ## One block row against the whole arrays -/

/-- If a query block's rows are rows b·256 … of the query array q and the key block is the key array k, what the body
    stores in the weights block at y is the weights array at the index under it. -/
theorem weights_block (q k : Arr) (x0 : FVec Ideal S256x512 .f32) (x1 : FVec Ideal S4096x512 .bf16) (b : Nat)
    (h0 : ∀ (p : Fin 256) (n : Fin 4096), n.val = b * 256 + p.val → ∀ d : Fin 512, x0 (ix2 p d) = q (ix2 n d))
    (h1 : ∀ (j : Fin 4096) (d : Fin 512), x1 (ix2 j d) = k (ix2 j d))
    (y : S256x4096.Idx) (i : S4096x4096.Idx) (hi0 : (i 0).val = b * 256 + (y 0).val) (hi1 : (i 1).val = (y 1).val) :
    k0_pay3 (F := Ideal) x0 x1 y = weightsMul q k i := by
  obtain ⟨p, j, rfl⟩ : ∃ (p : Fin 256) (j : Fin 4096), y = ix2 p j := ⟨y 0, y 1, eq_ix2 y⟩
  obtain ⟨n, j', rfl⟩ : ∃ (n : Fin 4096) (j' : Fin 4096), i = ix2 n j' := ⟨i 0, i 1, eq_ix2 i⟩
  obtain rfl : j' = j := Fin.ext hi1
  have hq : qrow x0 p = rowOf q n := funext fun d => h0 p n hi0 d
  have hk : rows x1 = rowsOf k := funext fun j => funext fun d => h1 j d
  rw [weights_apply, hq, hk]
  rfl

/-- The same for the result block, with the value block the value array v. -/
theorem output_block (q k v : Arr) (x0 : FVec Ideal S256x512 .f32) (x1 x2 : FVec Ideal S4096x512 .bf16) (b : Nat)
    (h0 : ∀ (p : Fin 256) (n : Fin 4096), n.val = b * 256 + p.val → ∀ d : Fin 512, x0 (ix2 p d) = q (ix2 n d))
    (h1 : ∀ (j : Fin 4096) (d : Fin 512), x1 (ix2 j d) = k (ix2 j d))
    (h2 : ∀ (j : Fin 4096) (d : Fin 512), x2 (ix2 j d) = v (ix2 j d))
    (y : S256x512.Idx) (i : S4096x512.Idx) (hi0 : (i 0).val = b * 256 + (y 0).val) (hi1 : (i 1).val = (y 1).val) :
    k0_pay4 (F := Ideal) x0 x1 x2 y = outputMul q k v i := by
  obtain ⟨p, e, rfl⟩ : ∃ (p : Fin 256) (e : Fin 512), y = ix2 p e := ⟨y 0, y 1, eq_ix2 y⟩
  obtain ⟨n, e', rfl⟩ : ∃ (n : Fin 4096) (e' : Fin 512), i = ix2 n e' := ⟨i 0, i 1, eq_ix2 i⟩
  obtain rfl : e' = e := Fin.ext hi1
  have hq : qrow x0 p = rowOf q n := funext fun d => h0 p n hi0 d
  have hk : rows x1 = rowsOf k := funext fun j => funext fun d => h1 j d
  have hv : rows x2 = rowsOf v := funext fun j => funext fun d => h2 j d
  rw [result_apply, hq, hk, hv]
  rfl

/-! ## The arrays the region finds, and each window's block at a point -/

variable (m : (ℓ : Loc nD τ sig) → Buf (Elt Ideal) ℓ) (ρ : Dev nD → PrngReg)

/-- The query array as the region finds it. -/
abbrev qArr (c : Dev nD) : Arr := V m c main_arg0
/-- The key array as the region finds it (after the host's format change). -/
abbrev kArr (c : Dev nD) : Arr := V m c main_v0
/-- The value array as the region finds it (after the host's format change). -/
abbrev vArr (c : Dev nD) : Arr := V m c main_v1

/-- The printed index maps over the 16 points: the query window and the two output windows move one block of rows per
    point, the key and value windows stay at the whole array. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The query block at point t is rows 256·t … of the query array. -/
theorem qblock_apply (c : Dev nD) (t : Fin cfg0.N) (p : Fin 256) (n : Fin 4096) (hn : n.val = t.val * 256 + p.val)
    (d : Fin 512) : (iblk m c 0 t : FVec Ideal S256x512 .f32) (ix2 p d) = qArr m c (ix2 n d) := by
  obtain ⟨e0, e1, -⟩ := idx_facts t
  unfold iblk
  rw [View.read_apply]
  show qArr m c _ = qArr m c _
  refine congrArg (qArr m c) (funext fun a => Fin.ext ?_)
  match a with
  | ⟨0, _⟩ => show win0_0.index t (0 : Fin 2) * 256 + 1 * p.val = n.val; rw [e0, hn]; omega
  | ⟨1, _⟩ => show win0_0.index t (1 : Fin 2) * 512 + 1 * d.val = d.val; rw [e1]; omega

/-- The key block at every point is the whole key array. -/
theorem kblock_apply (c : Dev nD) (t : Fin cfg0.N) (j : Fin 4096) (d : Fin 512) :
    (iblk m c 1 t : FVec Ideal S4096x512 .bf16) (ix2 j d) = kArr m c (ix2 j d) := by
  obtain ⟨-, -, e2, e3, -⟩ := idx_facts t
  unfold iblk
  rw [View.read_apply]
  show kArr m c _ = kArr m c _
  refine congrArg (kArr m c) (funext fun a => Fin.ext ?_)
  match a with
  | ⟨0, _⟩ => show win0_1.index t (0 : Fin 2) * 4096 + 1 * j.val = j.val; rw [e2]; omega
  | ⟨1, _⟩ => show win0_1.index t (1 : Fin 2) * 512 + 1 * d.val = d.val; rw [e3]; omega

/-- The value block at every point is the whole value array. -/
theorem vblock_apply (c : Dev nD) (t : Fin cfg0.N) (j : Fin 4096) (d : Fin 512) :
    (iblk m c 2 t : FVec Ideal S4096x512 .bf16) (ix2 j d) = vArr m c (ix2 j d) := by
  obtain ⟨-, -, -, -, e4, e5, -⟩ := idx_facts t
  unfold iblk
  rw [View.read_apply]
  show vArr m c _ = vArr m c _
  refine congrArg (vArr m c) (funext fun a => Fin.ext ?_)
  match a with
  | ⟨0, _⟩ => show win0_2.index t (0 : Fin 2) * 4096 + 1 * j.val = j.val; rw [e4]; omega
  | ⟨1, _⟩ => show win0_2.index t (1 : Fin 2) * 512 + 1 * d.val = d.val; rw [e5]; omega

/-! ## What each point writes back -/

theorem hz : (![0, 0] : Fin 2 → Nat) = fun _ => 0 := funext fun a => by fin_cases a <;> rfl

/-- Point t writes back block t of the weights array. -/
theorem flushed4_eq (c : Dev nD) (t : Fin cfg0.N) :
    (dats m 0 c).flushed 4 t = ((cfg0.win 4).blk t).view.read (Elt Ideal) (weightsMul (qArr m c) (kArr m c)) := by
  rw [Value.flushed4]
  unfold out0_4
  rw [View.canon_unit_zero hz]
  simp only [View.ld_unit_zero (S := S256x512) hz, View.ld_unit_zero (S := S4096x512) hz]
  obtain ⟨-, -, -, -, -, -, -, -, e8, e9⟩ := idx_facts t
  funext y
  show k0_pay3 (F := Ideal) (iblk m c 0 t) (iblk m c 1 t) y
    = weightsMul (qArr m c) (kArr m c) (((cfg0.win 4).blk t).view.emb y)
  refine weights_block (qArr m c) (kArr m c) (iblk m c 0 t) (iblk m c 1 t) t.val
    (fun p n hn d => qblock_apply m c t p n hn d) (fun j d => kblock_apply m c t j d) y _ ?_ ?_
  · show win0_4.index t (0 : Fin 2) * 256 + 1 * (y 0).val = t.val * 256 + (y 0).val; rw [e8]; omega
  · show win0_4.index t (1 : Fin 2) * 4096 + 1 * (y 1).val = (y 1).val; rw [e9]; omega

/-- Point t writes back block t of the result array. -/
theorem flushed3_eq (c : Dev nD) (t : Fin cfg0.N) :
    (dats m 0 c).flushed 3 t
      = ((cfg0.win 3).blk t).view.read (Elt Ideal) (outputMul (qArr m c) (kArr m c) (vArr m c)) := by
  rw [Value.flushed3]
  unfold out0_3
  rw [View.canon_unit_zero hz]
  simp only [View.ld_unit_zero (S := S256x512) hz, View.ld_unit_zero (S := S4096x512) hz]
  obtain ⟨-, -, -, -, -, -, e6, e7, -⟩ := idx_facts t
  funext y
  show k0_pay4 (F := Ideal) (iblk m c 0 t) (iblk m c 1 t) (iblk m c 2 t) y
    = outputMul (qArr m c) (kArr m c) (vArr m c) (((cfg0.win 3).blk t).view.emb y)
  refine output_block (qArr m c) (kArr m c) (vArr m c) (iblk m c 0 t) (iblk m c 1 t) (iblk m c 2 t) t.val
    (fun p n hn d => qblock_apply m c t p n hn d) (fun j d => kblock_apply m c t j d)
    (fun j d => vblock_apply m c t j d) y _ ?_ ?_
  · show win0_3.index t (0 : Fin 2) * 256 + 1 * (y 0).val = t.val * 256 + (y 0).val; rw [e6]; omega
  · show win0_3.index t (1 : Fin 2) * 512 + 1 * (y 1).val = (y 1).val; rw [e7]; omega

/-! ## The blocks cover the arrays -/

/-- An index of the weights array is in point t's block iff each coordinate is in the block's range on its axis. -/
theorem mem_blk4 (t : Fin cfg0.N) (i : S4096x4096.Idx) :
    i ∈ ((cfg0.win 4).blk t).view.set ↔ ∀ a : Fin 2, win0_4.index t a * S256x4096.size a ≤ (i a).val
      ∧ (i a).val < win0_4.index t a * S256x4096.size a + S256x4096.size a := by
  show i ∈ ((View.whole main_v2_1).slice (win0_4.rect t)).set ↔ _
  rw [View.set_slice_whole, Rect.mem_set_unit]
  exact Iff.rfl

/-- The same for the result array. -/
theorem mem_blk3 (t : Fin cfg0.N) (i : S4096x512.Idx) :
    i ∈ ((cfg0.win 3).blk t).view.set ↔ ∀ a : Fin 2, win0_3.index t a * S256x512.size a ≤ (i a).val
      ∧ (i a).val < win0_3.index t a * S256x512.size a + S256x512.size a := by
  show i ∈ ((View.whole main_v2_0).slice (win0_3.rect t)).set ↔ _
  rw [View.set_slice_whole, Rect.mem_set_unit]
  exact Iff.rfl

/-- Row r of the weights array is written at point r / 256. -/
theorem cover4 (i : S4096x4096.Idx) :
    ∃ t : Fin cfg0.N, (cfg0.win 4).flush t = true ∧ i ∈ ((cfg0.win 4).blk t).view.set := by
  have hi0 : (i 0).val < 4096 := idx2_lt0 i
  have hi1 : (i 1).val < 4096 := idx2_lt1 i
  have hN : cfg0.N = 16 := N_0
  obtain ⟨t, ht⟩ : ∃ t : Fin cfg0.N, t.val = (i 0).val / 256 := ⟨⟨(i 0).val / 256, by rw [hN]; omega⟩, rfl⟩
  obtain ⟨-, -, -, -, -, -, -, -, e8, e9⟩ := idx_facts t
  refine ⟨t, flush0_4 t, ?_⟩
  rw [mem_blk4]
  intro a
  match a with
  | ⟨0, _⟩ =>
    show win0_4.index t (0 : Fin 2) * 256 ≤ (i 0).val ∧ (i 0).val < win0_4.index t (0 : Fin 2) * 256 + 256
    rw [e8, ht]; omega
  | ⟨1, _⟩ =>
    show win0_4.index t (1 : Fin 2) * 4096 ≤ (i 1).val ∧ (i 1).val < win0_4.index t (1 : Fin 2) * 4096 + 4096
    rw [e9]; omega

/-- Row r of the result array is written at point r / 256. -/
theorem cover3 (i : S4096x512.Idx) :
    ∃ t : Fin cfg0.N, (cfg0.win 3).flush t = true ∧ i ∈ ((cfg0.win 3).blk t).view.set := by
  have hi0 : (i 0).val < 4096 := idx2_lt0 i
  have hi1 : (i 1).val < 512 := idx2_lt1 i
  have hN : cfg0.N = 16 := N_0
  obtain ⟨t, ht⟩ : ∃ t : Fin cfg0.N, t.val = (i 0).val / 256 := ⟨⟨(i 0).val / 256, by rw [hN]; omega⟩, rfl⟩
  obtain ⟨-, -, -, -, -, -, e6, e7, -⟩ := idx_facts t
  refine ⟨t, flush0_3 t, ?_⟩
  rw [mem_blk3]
  intro a
  match a with
  | ⟨0, _⟩ =>
    show win0_3.index t (0 : Fin 2) * 256 ≤ (i 0).val ∧ (i 0).val < win0_3.index t (0 : Fin 2) * 256 + 256
    rw [e6, ht]; omega
  | ⟨1, _⟩ =>
    show win0_3.index t (1 : Fin 2) * 512 ≤ (i 1).val ∧ (i 1).val < win0_3.index t (1 : Fin 2) * 512 + 512
    rw [e7]; omega

/-! ## The arrays after the run -/

theorem final4 (c : Dev nD) : (dats m 0 c).arrAt 4 cfg0.N = weightsMul (qArr m c) (kArr m c) :=
  (dats m 0 c).arrAt_eq_of_cover 4 (weightsMul (qArr m c) (kArr m c)) (fun t _ => flushed4_eq m c t) cover4

theorem final3 (c : Dev nD) : (dats m 0 c).arrAt 3 cfg0.N = outputMul (qArr m c) (kArr m c) (vArr m c) :=
  (dats m 0 c).arrAt_eq_of_cover 3 (outputMul (qArr m c) (kArr m c) (vArr m c)) (fun t _ => flushed3_eq m c t) cover3

/-! ## The arrays the region finds are the arguments -/

theorem qArr_eq (c : Dev nD) : qArr m c = m ((c : Thread nD τ).loc main_arg0) := V_main_arg0 m c

/-- The keys the region finds are the key argument: the host's narrowing format change is the identity. -/
theorem kArr_eq (c : Dev nD) : kArr m c = (m ((c : Thread nD τ).loc main_arg1) : Arr) := by
  show (V m c main_v0 : Arr) = _
  dsimp only [V, hostOps0]
  after_results
  rfl

/-- The values the region finds are the value argument. -/
theorem vArr_eq (c : Dev nD) : vArr m c = (m ((c : Thread nD τ).loc main_arg2) : Arr) := by
  show (V m c main_v1 : Arr) = _
  dsimp only [V, hostOps0]
  after_results
  rfl

/-! ## The run -/

/-- Every weakly fair execution of the program ends with the result array and the weights array at the reciprocal
    arrangement of softmax attention of the three arguments, and the arguments unchanged. -/
theorem run : θ_run defs (onTc (τ := τ) (main (F := Ideal))) ⟨m, fun _ => 0, ρ⟩ fun r => ∀ c : Dev nD,
      r.2.mem ((c : Thread nD τ).loc main_v2_0)
        = outputMul (m ((c : Thread nD τ).loc main_arg0)) (m ((c : Thread nD τ).loc main_arg1)) (m ((c : Thread nD τ).loc main_arg2))
      ∧ r.2.mem ((c : Thread nD τ).loc main_v2_1)
        = weightsMul (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (by rw [final3, qArr_eq, kArr_eq, vArr_eq]),
      (h c).2.1.trans (by rw [final4, qArr_eq, kArr_eq]), (h c).2.2⟩)
    (Value.run_blocks m ρ)

end Cert.KernelIdeal.Arrays

end
-- ==== Proof.RefRows.lean ====
/-
  The reference's operations, read one element at a time.

  The reference computes, for the whole 4096×4096 score matrix at once, what the row-wise specification says of each
  row n: the scores are inner products of query row n with the key rows; the row maximum is a fold of max from −∞
  (and a further max against −∞ changes nothing); the exponentials are shifted by it; the row sum starts from zero; the
  weights are the exponentials DIVIDED by the row sum; and the result is the weights against the value columns.
  So the weights are the quotient arrangement of the specification, and the result its quotient arrangement.
-/
import proofs.«405040_j72129680769346_3_alg».proof.Proof.Gen.ReferenceIdeal.Read
import proofs.«405040_j72129680769346_3_alg».proof.Proof.Softmax
import proofs.«405040_j72129680769346_3_alg».proof.Proof.Whole
import Idealize.ShloMosaic.Lib.ValueIdx
import Idealize.ShloMosaic.PureOps.Ideal.Laws

/-- The score matrix reduces along its second axis to one entry per row. -/
theorem Cert.ReferenceIdeal.Rows.reduces_rows :
    Idealize.ShloMosaic.Shape.Reduces Cert.ReferenceIdeal.S4096x4096 [1] Cert.ReferenceIdeal.S4096 := by decide

noncomputable section

namespace Cert.ReferenceIdeal.Rows

open Cert.ReferenceIdeal Cert.ReferenceIdeal.Gen Cert.ReferenceIdeal.Read Idealize.ShloMosaic
open Idealize.ShloMosaic.ValueIdx Cert.Attention

/-- Row n of a 4096×512 array, as a function of the feature. -/
abbrev arow (x : (⟨S4096x512, .f32⟩ : BufTy).Contents (Elt Ideal)) (n : Fin 4096) : Fin 512 → EReal := fun d => x (ix2 n d)
/-- A 4096×512 array by rows. -/
abbrev arows (x : (⟨S4096x512, .f32⟩ : BufTy).Contents (Elt Ideal)) : Fin 4096 → Fin 512 → EReal := fun j d => x (ix2 j d)

variable (x0 x1 x2 : (⟨S4096x512, .f32⟩ : BufTy).Contents (Elt Ideal))

/-- A score is the inner product of query row n and key row j. -/
theorem scores_apply (n j : Fin 4096) :
    val_main_v0 (F := Ideal) x0 x1 (ix2 n j) = score (arow x0 n) (arows x1) j := by
  rw [val_main_v0_apply]
  refine Finset.sum_congr rfl fun k _ => congrArg₂ (· * ·) (congrArg x0 ?_) (congrArg x1 ?_)
  · exact funext fun a => Fin.ext (by match a with | ⟨0, _⟩ => rfl | ⟨1, _⟩ => rfl)
  · exact funext fun a => Fin.ext (by match a with | ⟨0, _⟩ => rfl | ⟨1, _⟩ => rfl)

/-- A row index with the key coordinate k put back on the reduced axis is the index (n, k). -/
theorem lift_row (n k : Fin 4096) : reduces_rows.lift (ix1 n) k = ix2 n k :=
  funext fun a => Fin.ext (by match a with | ⟨0, _⟩ => rfl | ⟨1, _⟩ => rfl)

/-- The host's reduce with a maximum body along the rows of a 4096×4096 matrix, from −∞: at row n the fold of max
    over the row's 4096 entries. -/
theorem hostRowMax (x : FVec Ideal S4096x4096 .f32) (n : Fin 4096) :
    Host.reduce FloatOps.maximumf x (constant (F := Ideal) S_ .f32 0xFF800000#32) reducesTo_S4096x4096_S4096_d1 h_S_ (ix1 n)
      = top negInf (fun k : Fin 4096 => x (ix2 n k)) := by
  rw [Host.reduce_eq_fold_single FloatOps.maximumf x _ reducesTo_S4096x4096_S4096_d1 reduces_rows h_S_]
  have hf : (x ∘ reduces_rows.lift (ix1 n)) = fun k : Fin 4096 => x (ix2 n k) := funext fun k => congrArg x (lift_row n k)
  exact congrArg (fun f => Finset.fold max negInf f (Finset.univ : Finset (Fin 4096))) hf

/-- The reduce over a row of the scores is the fold of max over its 4096 scores from −∞. -/
theorem rowmax_apply (n : Fin 4096) :
    val_main_v1 (F := Ideal) x0 x1 (ix1 n) = top negInf (score (arow x0 n) (arows x1)) := by
  unfold val_main_v1 val_main_cst
  exact (hostRowMax (val_main_v0 (F := Ideal) x0 x1) n).trans
    (congrArg (top negInf) (funext fun k => scores_apply x0 x1 n k))

/-- A further maximum against −∞ leaves the row maximum as it is: the fold started from −∞ is at least −∞. -/
theorem rowmax_guard_apply (n : Fin 4096) :
    val_main_v3 (F := Ideal) x0 x1 (ix1 n) = top negInf (score (arow x0 n) (arows x1)) := by
  rw [val_main_v3_apply, val_main_v2_apply, val_main_cst_0_apply, rowmax_apply]
  show max negInf (top negInf (score (arow x0 n) (arows x1))) = _
  refine max_eq_right ?_
  unfold top
  rw [Finset.le_fold_max]
  exact Or.inl le_rfl

/-- The shifted exponentials. -/
theorem exps_apply (n j : Fin 4096) :
    val_main_v7 (F := Ideal) x0 x1 (ix2 n j) = shifted negInf (score (arow x0 n) (arows x1)) j := by
  rw [val_main_v7_apply, val_main_v6_apply, val_main_v5_apply, val_main_v4_apply, scores_apply]
  have hi : idx_main_v4 (idx_main_v5 (ix2 n j)) = ix1 n :=
    funext fun a => Fin.ext (by match a with | ⟨0, _⟩ => rfl)
  rw [hi, rowmax_guard_apply]
  rfl

/-- The row sums, started from zero. -/
theorem rowsum_apply (n : Fin 4096) :
    val_main_v8 (F := Ideal) x0 x1 (ix1 n) = total negInf (score (arow x0 n) (arows x1)) := by
  rw [val_main_v8_apply, val_main_cst_1_apply]
  show Ideal.ofBits .f32 0x00000000#32 + _ = _
  rw [Ideal.ofBits_zero_f32, zero_add]
  refine Finset.sum_congr rfl fun k _ => ?_
  refine Eq.trans (congrArg (val_main_v7 (F := Ideal) x0 x1) ?_) (exps_apply x0 x1 n k)
  exact funext fun a => Fin.ext (by match a with | ⟨0, _⟩ => rfl | ⟨1, _⟩ => rfl)

/-- THE WEIGHTS the reference returns, at row n and key j: the quotient arrangement. -/
theorem weights_apply (n j : Fin 4096) :
    val_main_v11 (F := Ideal) x0 x1 (ix2 n j) = weightDiv negInf (score (arow x0 n) (arows x1)) j := by
  rw [val_main_v11_apply, val_main_v10_apply, val_main_v9_apply, exps_apply]
  have hi : idx_main_v9 (idx_main_v10 (ix2 n j)) = ix1 n :=
    funext fun a => Fin.ext (by match a with | ⟨0, _⟩ => rfl)
  rw [hi, rowsum_apply]
  rfl

/-- THE RESULT the reference returns, at row n and column c: the weights against the value column. -/
theorem result_apply (n : Fin 4096) (c : Fin 512) :
    val_main_v12 (F := Ideal) x0 x1 x2 (ix2 n c) = resultDiv negInf (score (arow x0 n) (arows x1)) (arows x2) c := by
  rw [val_main_v12_apply]
  refine Finset.sum_congr rfl fun k _ => congrArg₂ (· * ·) ?_ (congrArg x2 ?_)
  · refine Eq.trans (congrArg (val_main_v11 (F := Ideal) x0 x1) ?_) (weights_apply x0 x1 n k)
    exact funext fun a => Fin.ext (by match a with | ⟨0, _⟩ => rfl | ⟨1, _⟩ => rfl)
  · exact funext fun a => Fin.ext (by match a with | ⟨0, _⟩ => rfl | ⟨1, _⟩ => rfl)

/-! ## The two results as whole arrays -/

/-- The weights array the reference returns is the quotient arrangement of the arguments. -/
theorem weights_eq : val_main_v11 (F := Ideal) x0 x1 = weightsDiv x0 x1 := by
  funext i
  obtain ⟨n, j, rfl⟩ : ∃ (n : Fin 4096) (j : Fin 4096), i = ix2 n j := ⟨i 0, i 1, eq_ix2 i⟩
  exact weights_apply x0 x1 n j

/-- The result array the reference returns is the quotient arrangement of the arguments. -/
theorem output_eq : val_main_v12 (F := Ideal) x0 x1 x2 = outputDiv x0 x1 x2 := by
  funext i
  obtain ⟨n, c, rfl⟩ : ∃ (n : Fin 4096) (c : Fin 512), i = ix2 n c := ⟨i 0, i 1, eq_ix2 i⟩
  exact result_apply x0 x1 x2 n c

end Cert.ReferenceIdeal.Rows

end
-- ==== Proof.Finite.lean ====
/-
  The precondition read back: every entry of the three arguments is a real number.

  The precondition is the conjunction, over the three arrays, of "every entry's absolute value is less than +∞",
  each conjunct a reduction by AND of the entrywise comparison. An AND that comes out 1 met only 1s, so the comparison
  holds at every entry; and an extended real whose absolute value max x (−x) is below +∞ is neither +∞ nor −∞.
-/
import proofs.«405040_j72129680769346_3_alg».proof.Pre_finite_inputs
import proofs.«405040_j72129680769346_3_alg».proof.Proof.Gen.Pre_finite_inputs
import proofs.«405040_j72129680769346_3_alg».proof.Proof.Whole
import Idealize.ShloMosaic.Lib.ReduceAll
import Idealize.ShloMosaic.Lib.ValueIdx

noncomputable section

namespace Cert.Pre_finite_inputs.Real

open Cert.Pre_finite_inputs Cert.Pre_finite_inputs.Gen Cert.Attention
open Idealize.ShloMosaic Idealize.ShloMosaic.ValueIdx

/-- The scalar shape has one index. -/
instance : Subsingleton S_.Idx := ⟨fun a b => funext fun d => d.elim0⟩

/-- An extended real whose absolute value compares below the pattern of +∞ is a real number. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  have hlt : max x (-x) < ⊤ := by
    by_contra hn
    have h0 : Ideal.cmp .olt (max x (-x)) ⊤ = 0#1 := by simp [Ideal.cmp, hn]
    rw [h0] at h
    exact absurd h (by decide)
  have h1 : x < ⊤ := lt_of_le_of_lt (le_max_left _ _) hlt
  have h2 : -x < ⊤ := lt_of_le_of_lt (le_max_right _ _) hlt
  have h3 : x ≠ ⊥ := by
    rintro rfl
    simp at h2
  exact ⟨x.toReal, (EReal.coe_toReal h1.ne h3).symm⟩

/-- One conjunct: the AND over all entries of "absolute value below +∞" being 1 makes every entry real. -/
theorem allReal_of_all (a : FVec Ideal S4096x512 .f32)
    (h : Host.reduce IntOp.andi
        (cmpf .olt (Host.absf a) (broadcastInDim S4096x512 ![] Facts.bcast_S_S4096x512 (constant (F := Ideal) S_ .f32 0x7F800000#32)))
        (constantI S_ 1 1#1) Facts.reducesTo_S4096x512_S_d0_1 Facts.h_S_ ix0 = 1#1) : AllReal a := by
  intro i
  have hi := Host.reduce_andi_all _ _ Facts.reducesTo_S4096x512_S_d0_1 Facts.h_S_ ix0 h i
  exact real_of_abs_lt (a i) hi

/-- THE PRECONDITION gives real entries in all three arrays. -/
theorem allReal_of_pre (a0 a1 a2 : FVec Ideal S4096x512 .f32) (h : fn (F := Ideal) a0 a1 a2 = fun _ => 1#1) :
    AllReal a0 ∧ AllReal a1 ∧ AllReal a2 := by
  have h0 := congrFun h ix0
  dsimp only [fn] at h0
  obtain ⟨h01, h2⟩ := IntOp.andi_eq_one.1 h0
  obtain ⟨h0', h1'⟩ := IntOp.andi_eq_one.1 h01
  exact ⟨allReal_of_all a0 h0', allReal_of_all a1 h1', allReal_of_all a2 h2⟩

end Cert.Pre_finite_inputs.Real

end
-- ==== Proof.lean ====
/-
  Softmax attention with both outputs (the result and the weights), a kernel against its plain reference.

  Both programs compute, for each query row, the scores against every key row, subtract the row's greatest score,
  exponentiate and sum. The reference then divides every exponential by the row's sum and multiplies the weights with
  the values; the kernel takes the reciprocal of the sum once per row, scales the exponentials by it for the weights,
  and for the result multiplies the UNNORMALISED exponentials with the values and scales afterwards. On extended reals
  the two arrangements agree when every input entry is a real number, which is the precondition: then every score is
  real, the greatest of a row is real, the exponentials are positive reals and so is their sum, division by it is
  multiplication by its reciprocal, and the reciprocal moves across the finite sum. The kernel's narrowing format
  changes (of the keys and values before the call, of the queries and the exponentials inside it) are the identity on
  extended reals, and its two matrix products are the same inner products the reference takes.

  The idealization rewrote nothing, so the kernel and its idealized text are one program read at two instances.
-/
import proofs.«405040_j72129680769346_3_alg».proof.Defs
import proofs.«405040_j72129680769346_3_alg».proof.Proof.Gen.Kernel
import proofs.«405040_j72129680769346_3_alg».proof.Proof.Gen.Kernel.Skeleton
import proofs.«405040_j72129680769346_3_alg».proof.Proof.Gen.Kernel.Launch
import proofs.«405040_j72129680769346_3_alg».proof.Proof.Gen.Kernel.Points
import proofs.«405040_j72129680769346_3_alg».proof.Proof.Gen.Kernel.Frame
import proofs.«405040_j72129680769346_3_alg».proof.Proof.Gen.KernelIdeal
import proofs.«405040_j72129680769346_3_alg».proof.Proof.Gen.KernelIdeal.Skeleton
import proofs.«405040_j72129680769346_3_alg».proof.Proof.Gen.KernelIdeal.Launch
import proofs.«405040_j72129680769346_3_alg».proof.Proof.Gen.KernelIdeal.Points
import proofs.«405040_j72129680769346_3_alg».proof.Proof.Gen.KernelIdeal.Frame
import proofs.«405040_j72129680769346_3_alg».proof.Proof.Gen.ReferenceIdeal
import proofs.«405040_j72129680769346_3_alg».proof.Proof.Gen.Pre_finite_inputs
import proofs.«405040_j72129680769346_3_alg».proof.Proof.Gen.KernelIdeal.Value
import proofs.«405040_j72129680769346_3_alg».proof.Proof.Gen.ReferenceIdeal.Run
import proofs.«405040_j72129680769346_3_alg».proof.Proof.Gen.ReferenceIdeal.Read
import proofs.«405040_j72129680769346_3_alg».proof.Proof.KernelArrays
import proofs.«405040_j72129680769346_3_alg».proof.Proof.RefRows
import proofs.«405040_j72129680769346_3_alg».proof.Proof.Finite
import Idealize.ShloMosaic.Adequacy
import Idealize.ShloMosaic.Init

noncomputable section

namespace Cert.Proof

open Idealize.ShloMosaic Idealize.ShloMosaic.TcCoe Idealize.SL.Sem Cert.Attention

/-- The kernel as printed runs and leaves its arguments unchanged. -/
theorem frame_kernel : Cert.frame_Kernel := fun m ρ _ => Cert.Kernel.Gen.frame m ρ

/-- So does its idealized text. -/
theorem frame_kernelIdeal : Cert.frame_KernelIdeal := fun m ρ _ => Cert.KernelIdeal.Gen.frame m ρ

/-- The reference runs and leaves its arguments unchanged: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the three arguments, all entries real, the kernel ends at the reciprocal arrangement of
    the arguments and the reference at the quotient arrangement of the same arguments: one pair of arrays. -/
theorem algebraic : Cert.algebraic_KernelIdeal_ReferenceIdeal := by
  intro m ρ m' ρ' hpre hagree
  refine ⟨_, _, Cert.KernelIdeal.Arrays.run m ρ, ?_⟩
  refine (θ_run Cert.ReferenceIdeal.defs _ _).mono (fun _ h c => ?_) (Cert.ReferenceIdeal.Value.run (F := Ideal) m' ρ')
  obtain ⟨hq, hk, hv⟩ := Cert.Pre_finite_inputs.Real.allReal_of_pre _ _ _ (hpre c)
  obtain ⟨a0, a1, a2⟩ := hagree c
  refine ⟨(h c).1.trans ?_, (h c).2.1.trans ?_, (h c).2.2⟩
  · refine (Cert.ReferenceIdeal.Read.val_main_v12_eq _ _ _).trans ?_
    rw [Cert.ReferenceIdeal.Rows.output_eq, a0, a1, a2]
    exact outputDiv_eq _ _ _ hq hk hv
  · refine (Cert.ReferenceIdeal.Read.val_main_v11_eq _ _).trans ?_
    rw [Cert.ReferenceIdeal.Rows.weights_eq, a0, a1]
    exact weightsDiv_eq _ _ hq hk

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
